-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S1x1 : Shape := ⟨2, ![1, 1]⟩
abbrev S512x4096 : Shape := ⟨2, ![512, 4096]⟩
abbrev S1x512x4096 : Shape := ⟨3, ![1, 512, 4096]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x1, .f32⟩
  | .hbm, ⟨3, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1, .f32⟩
  | .local _ .vmem, ⟨5, _⟩ => ⟨S1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel

variable [Facts₀]

class Facts : Prop extends Facts₀ where

variable [Facts]
-- ==== Proof.Pieces.lean ====
/-
  What one run of the kernel body leaves behind, in each of its three control cases, as the body's own
  arithmetic.

  The body keeps a 1 × 1 accumulator in scratch memory.  At the first grid point it stores zero there,
  reads it back, and stores "accumulator + sum over the block of (a − b)²" (`k0_pay2` of the two input
  blocks and the zero word `k0_pay1`).  At every later point it stores the same expression of the
  accumulator the point before left.  At the last point it then reads the accumulator back and stores
  "accumulator / 2²⁶" (`k0_pay3`) into the output block.  Each statement below reads the stores of one case
  back as that term: every store covers the whole 1 × 1 buffer, so the last one is what the buffer holds,
  and a load after a covering store reads that store's value.
-/
import proofs.«148727_j6820408066430_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer access are all zero. -/
theorem hz : (![0, 0] : Fin 2 → Nat) = fun _ => 0 := funext fun a => by fin_cases a <;> rfl

/-- FIRST POINT: the accumulator ends at the block's contribution added to the stored zero. -/
theorem scratch_first (c : Dev nD) (i : grid0.Coords) (a1 : Memref sig .tc .vmem S512x4096 .f32) (h1 : a1.IsWhole) (a2 : Memref sig .tc .vmem S512x4096 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i)
    (x0 x1 : Vec F S512x4096 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S512x4096) hz]

/-- A MIDDLE POINT: the accumulator ends at the block's contribution added to what the point before left. -/
theorem scratch_middle (c : Dev nD) (i : grid0.Coords) (a1 : Memref sig .tc .vmem S512x4096 .f32) (h1 : a1.IsWhole) (a2 : Memref sig .tc .vmem S512x4096 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i)
    (x0 x1 : Vec F S512x4096 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S512x4096) hz,
    View.ld_unit_zero (S := S1x1) hz]

/-- THE LAST POINT: the accumulator likewise, -/
theorem scratch_last (c : Dev nD) (i : grid0.Coords) (a1 : Memref sig .tc .vmem S512x4096 .f32) (h1 : a1.IsWhole) (a2 : Memref sig .tc .vmem S512x4096 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S512x4096 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S512x4096) hz,
    View.ld_unit_zero (S := S1x1) hz]

/-- and the output block holds that accumulator divided by the element count. -/
theorem out_last (c : Dev nD) (i : grid0.Coords) (a1 : Memref sig .tc .vmem S512x4096 .f32) (h1 : a1.IsWhole) (a2 : Memref sig .tc .vmem S512x4096 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S512x4096 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S512x4096) hz,
    View.ld_unit_zero (S := S1x1) hz]

end Cert.KernelIdeal.Pieces

end
-- ==== Proof.BlockSums.lean ====
/-
  The mathematics of a mean of squared differences taken block by block.

  A 16384 × 4096 array is 32 blocks of 512 consecutive rows.  The sum of a function over the whole
  array is the sum, over the blocks, of the function's sums over each block (`sum_blocks`): the rows
  `512·t + p` with `t < 32`, `p < 512` are every row exactly once.  An accumulator that starts at `0`
  and adds one block's sum per step therefore ends, after the last block, at the whole array's sum
  (`runningSum_last`).  Both facts hold in any commutative monoid; they are used on the extended
  reals, where addition is commutative and associative with `0` neutral at every value, infinite ones
  included, so no finiteness of the entries is needed.

  A shape cast only re-indexes an array bijectively (by row-major position), so it keeps the total sum
  (`sum_shapeCast`).
-/
import Idealize.ShloMosaic.Lib.ValueIdx
import Idealize.ShloMosaic.PureOps.Ideal.Laws
import Mathlib.Algebra.BigOperators.Fin

noncomputable section

open Idealize.ShloMosaic Idealize.ShloMosaic.ValueIdx

namespace Cert.MeanSq

/-- The whole array's index set and one block's. -/
abbrev Whole : Shape := ⟨2, ![16384, 4096]⟩
abbrev Block : Shape := ⟨2, ![512, 4096]⟩

/-- A shape cast keeps the total sum: it reads the same entries through a bijection of the index sets. -/
theorem sum_shapeCast {M : Type} [AddCommMonoid M] {s t : Shape} (x : s.Idx → M) (h : s.ShapeCasts t) :
    ∑ j : t.Idx, shapeCast t x h j = ∑ k : s.Idx, x k :=
  Equiv.sum_comp (Shape.reshapeEquiv h) x

/-- Row `512·s + p` of the array, for block `s < 32` and row `p < 512` inside it. -/
def blockRow (s : ℕ) (hs : s < 32) (p : Fin 512) : Fin 16384 :=
  ⟨512 * s + p.val, by have := p.isLt; omega⟩

/-- Entry `y = (p, q)` of block `s` sits at `(512·s + p, q)` of the array. -/
def blockIdx (s : ℕ) (hs : s < 32) (y : Block.Idx) : Whole.Idx :=
  ix2 (blockRow s hs (y 0)) (y 1)

theorem blockIdx_ix2 (s : ℕ) (hs : s < 32) (p : Fin 512) (q : Fin 4096) :
    blockIdx s hs (ix2 p q) = ix2 (blockRow s hs p) q := rfl

/-- The rows as pairs (block, row inside the block). -/
def rowEquiv : Fin 32 × Fin 512 ≃ Fin 16384 :=
  finProdFinEquiv.trans (finCongr (by norm_num))

theorem rowEquiv_apply (t : Fin 32) (p : Fin 512) : rowEquiv (t, p) = blockRow t.val t.isLt p := by
  apply Fin.ext
  simp only [rowEquiv, blockRow, Equiv.trans_apply, finProdFinEquiv_apply_val, finCongr_apply, Fin.coe_cast]
  omega

/-- A sum over the array is the sum over the 32 blocks of the sums over each block. -/
theorem sum_blocks {M : Type} [AddCommMonoid M] (f : Whole.Idx → M) :
    ∑ i, f i = ∑ t : Fin 32, ∑ y : Block.Idx, f (blockIdx t.val t.isLt y) := by
  rw [sum_idx2, ← Equiv.sum_comp rowEquiv, Fintype.sum_prod_type]
  refine Finset.sum_congr rfl fun t _ => ?_
  rw [sum_idx2]
  refine Finset.sum_congr rfl fun p _ => ?_
  rw [rowEquiv_apply]
  rfl

/-- The accumulator after step `n`: `0` plus the first block's sum, then one more block's sum per step. -/
def runningSum {M : Type} [AddCommMonoid M] (B : ℕ → M) : ℕ → M
  | 0 => 0 + B 0
  | n + 1 => runningSum B n + B (n + 1)

theorem runningSum_eq {M : Type} [AddCommMonoid M] (B : ℕ → M) (n : ℕ) :
    runningSum B n = ∑ s ∈ Finset.range (n + 1), B s := by
  induction n with
  | zero => simp [runningSum]
  | succ n ih => rw [runningSum, ih, Finset.sum_range_succ _ (n + 1)]

/-- After the last of the 32 steps the accumulator holds the sum of all the blocks' sums. -/
theorem runningSum_last {M : Type} [AddCommMonoid M] (B : ℕ → M) :
    runningSum B 31 = ∑ t : Fin 32, B t.val := by
  rw [runningSum_eq, Fin.sum_univ_eq_sum_range]

/-- So an accumulator fed the blocks' sums of `f`, one block per step, ends at `f`'s sum over the array. -/
theorem runningSum_blocks {M : Type} [AddCommMonoid M] (f : Whole.Idx → M) (B : ℕ → M)
    (hB : ∀ (s : ℕ) (hs : s < 32), B s = ∑ y : Block.Idx, f (blockIdx s hs y)) :
    runningSum B 31 = ∑ i, f i := by
  rw [runningSum_last, sum_blocks]
  exact Finset.sum_congr rfl fun t _ => hB t.val t.isLt

end Cert.MeanSq

end
-- ==== Proof.Payloads.lean ====
/-
  The body's three stored values, read on the extended reals.

  The zero word is `0`.  The accumulator update stores, at its one index, the accumulator's old value plus
  the sum over the whole 512 × 4096 block of (a − b)·(a − b): the block of products is shape-cast to
  1 × 512 × 4096 and reduced over its two long axes into a one-element vector, which at the exact
  reading is the total sum of the cast array, hence of the block itself (a cast re-indexes bijectively);
  the casts, the extraction and the broadcast around it only move that one number.  The final store
  divides the accumulator by the word 0x4C800000.
-/
import proofs.«148727_j6820408066430_1_alg».proof.Proof.Gen.KernelIdeal.Skeleton
import proofs.«148727_j6820408066430_1_alg».proof.Proof.BlockSums
import Idealize.ShloMosaic.Lib.Pipeline.Value
import Idealize.ShloMosaic.PureOps.Ideal.Laws

noncomputable section

open Idealize.ShloMosaic Idealize.ShloMosaic.TcCoe

namespace Cert.KernelIdeal.Payloads

open Cert.KernelIdeal Cert.KernelIdeal.Gen Cert.MeanSq

/-- The squared difference of two extended reals. -/
def sqd (a b : EReal) : EReal := (a - b) * (a - b)

/-- A block's contribution: the sum of its squared differences. -/
def blockSum (x0 x1 : Vec Ideal S512x4096 .f32) : EReal := ∑ y : S512x4096.Idx, sqd (x0 y) (x1 y)

/-- The divisor word, as an extended real (left unevaluated: it is the same word on both sides). -/
abbrev count : EReal := Ideal.ofBits .f32 0x4C800000#32

/-- The stored zero is `0`. -/
theorem pay1_apply (j : S1x1.Idx) : k0_pay1 (F := Ideal) j = 0 := by
  unfold k0_pay1
  rw [shapeCast_self]
  exact Ideal.ofBits_zero_f32

/-- The sum-reduction of the cast block of products over its two long axes is the block's sum of squared
    differences, at every index of the one-element result. -/
theorem reduce_block (x0 x1 : Vec Ideal S512x4096 .f32) (hc : S512x4096.ShapeCasts S1x512x4096)
    (hr : S1x512x4096.Reduces [1, 2] S1) :
    FloatOps.reduceAdd (F := Ideal) (φ := .f32) [1, 2] hr
        (shapeCast S1x512x4096 (mulf (F := Ideal) (φ := .f32) (subf (F := Ideal) (φ := .f32) x0 x1) (subf (F := Ideal) (φ := .f32) x0 x1)) hc)
      = fun _ => blockSum x0 x1 := by
  funext j
  rw [Ideal.reduceAdd_def, Ideal.reduceAdd_total hr (by decide), sum_shapeCast]
  rfl

/-- The accumulator update at its index: the old value plus the block's contribution. -/
theorem pay2_apply (x0 x1 : Vec Ideal S512x4096 .f32) (xs : Vec Ideal S1x1 .f32) (j : S1x1.Idx) :
    k0_pay2 (F := Ideal) x0 x1 xs j = xs j + blockSum x0 x1 := by
  unfold k0_pay2 multiReduction
  dsimp only
  rw [reduce_block, shapeCast_self]
  rfl

/-- The final store at its index: the accumulator divided by the element count. -/
theorem pay3_apply (v : Vec Ideal S1x1 .f32) (j : S1x1.Idx) : k0_pay3 (F := Ideal) v j = Ideal.div (v j) count := rfl

end Cert.KernelIdeal.Payloads

end
-- ==== Proof.KernelValue.lean ====
/-
  What the kernel's run computes, on the extended reals: the mean of the squared differences.

  Point `t` of the grid of 32 sees rows `512·t … 512·t + 511` of the two arguments (`ablk_apply`,
  `bblk_apply`).  The scratch accumulator after point `n` is the running sum of the contributions of
  points `0 … n`, started from the stored zero (`acc_eq`, by induction on the point: the first point
  is the case that resets, every later one adds to what the point before left).  The last point stores
  the accumulator divided by the element count into the 1 × 1 output block (`out_eq`), the only
  write-back of that window, and its block is the whole output array (`final_out`).  The accumulator
  after the last point is the sum over the whole arrays (the blocks of rows partition them), so the
  output holds the mean (`mean_eq`).  The host's reshape after the region reads that one entry as a
  scalar (`tail_eq`).
-/
import proofs.«148727_j6820408066430_1_alg».proof.Proof.Pieces
import proofs.«148727_j6820408066430_1_alg».proof.Proof.Payloads
import Idealize.ShloMosaic.Lib.StableHlo.Run

noncomputable section

open Idealize.ShloMosaic Idealize.ShloMosaic.TcCoe Idealize.SL.Sem
open Idealize.ShloMosaic.Pipeline (Dat)

namespace Cert.KernelIdeal.MeanValue

open Cert.KernelIdeal Cert.KernelIdeal.Gen Cert.MeanSq Cert.KernelIdeal.Payloads Cert.KernelIdeal.Pieces

variable (m : (ℓ : Loc nD τ sig) → Buf (Elt Ideal) ℓ) (ρ : Dev nD → PrngReg)

/-- The two arguments as the region finds them, and their blocks at a point, at their literal types. -/
abbrev aarr (c : Dev nD) : Vec Ideal S16384x4096 .f32 := V m c main_arg0
abbrev barr (c : Dev nD) : Vec Ideal S16384x4096 .f32 := V m c main_arg1
abbrev ablk (c : Dev nD) (t : Fin cfg0.N) : Vec Ideal S512x4096 .f32 := iblk m c 0 t
abbrev bblk (c : Dev nD) (t : Fin cfg0.N) : Vec Ideal S512x4096 .f32 := iblk m c 1 t

/-- Both input windows sit at block row `t`, block column `0`, at point `t`; the output window never moves. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem N32 : cfg0.N = 32 := N_0

/-- Entry `y` of the first argument's block at point `t` is the argument's entry at row `512·t + y₀`. -/
theorem ablk_apply (c : Dev nD) (t : Fin cfg0.N) (y : S512x4096.Idx) :
    ablk m c t y = aarr m c (blockIdx t.val (lt_of_lt_of_eq t.isLt N32) y) := by
  obtain ⟨e0, e1, -, -, -, -⟩ := index_facts t
  show V m c main_arg0 (((cfg0.win 0).blk t).view.emb y) = V m c main_arg0 _
  congr 1
  funext a; apply Fin.ext
  match a with
  | ⟨0, _⟩ => show win0_0.index t (0 : Fin 2) * 512 + 1 * (y 0).val = 512 * t.val + (y 0).val; omega
  | ⟨1, _⟩ => show win0_0.index t (1 : Fin 2) * 4096 + 1 * (y 1).val = (y 1).val; omega

/-- The same for the second argument. -/
theorem bblk_apply (c : Dev nD) (t : Fin cfg0.N) (y : S512x4096.Idx) :
    bblk m c t y = barr m c (blockIdx t.val (lt_of_lt_of_eq t.isLt N32) y) := by
  obtain ⟨-, -, e0, e1, -, -⟩ := index_facts t
  show V m c main_arg1 (((cfg0.win 1).blk t).view.emb y) = V m c main_arg1 _
  congr 1
  funext a; apply Fin.ext
  match a with
  | ⟨0, _⟩ => show win0_1.index t (0 : Fin 2) * 512 + 1 * (y 0).val = 512 * t.val + (y 0).val; omega
  | ⟨1, _⟩ => show win0_1.index t (1 : Fin 2) * 4096 + 1 * (y 1).val = (y 1).val; omega

/-- Point `s`'s contribution: the sum of the squared differences over its block (nothing beyond the grid). -/
def contrib (c : Dev nD) (s : ℕ) : EReal :=
  if h : s < cfg0.N then blockSum (ablk m c ⟨s, h⟩) (bblk m c ⟨s, h⟩) else 0

theorem contrib_of_lt (c : Dev nD) (s : ℕ) (h : s < cfg0.N) :
    contrib m c s = blockSum (ablk m c ⟨s, h⟩) (bblk m c ⟨s, h⟩) := dif_pos h

/-- THE ACCUMULATOR after point `n` is the running sum of the contributions of points `0 … n`. -/
theorem acc_eq (c : Dev nD) : ∀ (n : ℕ) (h : n < cfg0.N) (j : S1x1.Idx),
    (outsAt0 m c n h).2 j = runningSum (contrib m c) n
  | 0, h, j => by
    have h0 : (⟨0, h⟩ : Fin cfg0.N).val % 32 = 0 := Nat.zero_mod _
    have h1 : ¬(⟨0, h⟩ : Fin cfg0.N).val % 32 = 31 := by show ¬(0 % 32 = 31); omega
    rw [show outsAt0 m c 0 h = _ from outsAt0_A m c ⟨0, h⟩ h0 h1]
    dsimp only
    refine (congrFun (scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩)) j).trans ?_
    rw [pay2_apply, pay1_apply, runningSum, contrib_of_lt m c 0 h]
  | n + 1, h, j => by
    have hN : cfg0.N = 32 := N32
    have h0 : ¬(⟨n + 1, h⟩ : Fin cfg0.N).val % 32 = 0 := by show ¬((n + 1) % 32 = 0); omega
    have ih : (outsAt0 m c ((⟨n + 1, h⟩ : Fin cfg0.N).val - 1) (Nat.lt_of_le_of_lt (Nat.sub_le _ _) (⟨n + 1, h⟩ : Fin cfg0.N).isLt)).2 j
        = runningSum (contrib m c) n := acc_eq c n (Nat.lt_of_succ_lt h) j
    by_cases h1 : (⟨n + 1, h⟩ : Fin cfg0.N).val % 32 = 31
    · rw [show outsAt0 m c (n + 1) h = _ from outsAt0_C m c ⟨n + 1, h⟩ h0 h1]
      dsimp only
      refine (congrFun (scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c ((⟨n + 1, h⟩ : Fin cfg0.N).val - 1) (Nat.lt_of_le_of_lt (Nat.sub_le _ _) (⟨n + 1, h⟩ : Fin cfg0.N).isLt)).2) j).trans ?_
      rw [pay2_apply, ih, runningSum, contrib_of_lt m c (n + 1) h]
    · rw [show outsAt0 m c (n + 1) h = _ from outsAt0_B m c ⟨n + 1, h⟩ h0 h1]
      dsimp only
      refine (congrFun (scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c ((⟨n + 1, h⟩ : Fin cfg0.N).val - 1) (Nat.lt_of_le_of_lt (Nat.sub_le _ _) (⟨n + 1, h⟩ : Fin cfg0.N).isLt)).2) j).trans ?_
      rw [pay2_apply, ih, runningSum, contrib_of_lt m c (n + 1) h]

/-- THE OUTPUT BLOCK at the last point: that point's accumulator divided by the element count. -/
theorem out_eq (c : Dev nD) (t : Fin cfg0.N) (h1 : t.val % 32 = 31) (j : S1x1.Idx) :
    (outsAt0 m c t.val t.isLt).1 j = Ideal.div ((outsAt0 m c t.val t.isLt).2 j) count := by
  have hN : cfg0.N = 32 := N32
  have h0 : ¬t.val % 32 = 0 := by omega
  rw [outsAt0_C m c t h0 h1]
  dsimp only
  rw [out_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2,
    scratch_last (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2]
  rfl

/-- The sum of the squared differences over the whole arrays. -/
def total (c : Dev nD) : EReal := ∑ i : S16384x4096.Idx, sqd (aarr m c i) (barr m c i)

/-- The accumulator after the last point is that sum: the 32 blocks of rows partition the arrays. -/
theorem acc_last (c : Dev nD) : runningSum (contrib m c) 31 = total m c := by
  refine runningSum_blocks (fun i => sqd (aarr m c i) (barr m c i)) (contrib m c) fun s hs => ?_
  rw [contrib_of_lt m c s (lt_of_lt_of_eq hs N32.symm)]
  refine Finset.sum_congr rfl fun y _ => ?_
  rw [ablk_apply, bblk_apply]

/-- The mean: what the output array ends holding, at its one index. -/
abbrev mean (c : Dev nD) : EReal := Ideal.div (total m c) count

/-- The output array's contents after the run. -/
abbrev result (c : Dev nD) : Buf (Elt Ideal) ((c : Thread nD τ).loc main_v0) := fun _ => mean m c

/-- The one write-back (at the last point) writes the mean. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N32
  have h31 : t.val % 32 = 31 := (flush0_2 t).mp hf
  have ht : t.val = 31 := by have := t.isLt; omega
  funext y
  show (dats m 0 c).after 2 t _ = mean m c
  rw [after0_2 m c t]
  refine (out_eq m c t h31 _).trans ?_
  rw [acc_eq m c t.val t.isLt]
  show Ideal.div (runningSum (contrib m c) t.val) count = Ideal.div (total m c) count
  rw [ht, acc_last]

/-- Its block is the whole 1 × 1 array. -/
theorem covered (i : S1x1.Idx) :
    ∃ t : Fin cfg0.N, (cfg0.win 2).flush t = true ∧ i ∈ ((cfg0.win 2).blk t).view.set := by
  have h31 : 31 < cfg0.N := by rw [N32]; omega
  obtain ⟨t, ht⟩ : ∃ t : Fin cfg0.N, t.val = 31 := ⟨⟨31, h31⟩, rfl⟩
  refine ⟨t, (flush0_2 t).mpr (by rw [ht]), ?_⟩
  obtain ⟨-, -, -, -, e0, e1⟩ := index_facts t
  show i ∈ ((View.whole main_v0).slice (win0_2.rect t)).set
  rw [View.set_slice_whole, Rect.mem_set_unit]
  intro a
  have i0 : (i 0).val < 1 := (i 0).isLt
  have i1 : (i 1).val < 1 := (i 1).isLt
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 1 ≤ (i 1).val ∧ (i 1).val < win0_2.index t (1 : Fin 2) * 1 + 1; omega

/-- So the output array ends holding the mean. -/
theorem final_out (c : Dev nD) : (dats m 0 c).arrAt 2 cfg0.N = result m c :=
  (dats m 0 c).arrAt_eq_of_cover 2 (result m c) (flushed_eq m c) covered

/-- The program's result: the host's reshape of the 1 × 1 output array to a scalar reads the mean. -/
abbrev scalar (c : Dev nD) : Buf (Elt Ideal) ((c : Thread nD τ).loc main_v1) := fun _ => mean m c

theorem tail_eq (c : Dev nD) :
    Pipeline.afterTail₀ cfgs (dats m) 0 (V0 m) [hostOps1] c main_v1 = scalar m c := by
  have hw : Pipeline.withArrays (cfgs 0).spec c (V0 m c) (fun w => (dats m 0 c).arrAt w (cfgs 0).N) (Proc.devRef .tc main_v0)
      = result m c :=
    (Pipeline.withArrays_arr spec0 launch0.win.arr_inj c _ _ 2).trans (final_out m c)
  unfold Pipeline.afterTail₀
  show StableHlo.after hostOps1 _ (Proc.devRef .tc main_v1) = _
  after_results
  rw [hw]
  rfl

/-- THE RUN, READ: every weakly fair execution ends with the program's result at the mean and the two arguments
    unchanged. -/
theorem run : θ_run defs (onTc (τ := τ) (main (F := Ideal))) ⟨m, fun _ => 0, ρ⟩ fun r => ∀ c : Dev nD,
      r.2.mem ((c : Thread nD τ).loc main_v1) = scalar m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.MeanValue

end
-- ==== Proof.RefValue.lean ====
/-
  The reference's result on the extended reals.

  jnp's mean of the squared differences lowers to: subtract, multiply the difference by itself, sum over
  both axes starting from the zero word, divide by the word 0x4C800000.  Read at its one (scalar) index
  through the generated stage lemmas this is the sum over the whole array of (a − b)·(a − b), the leading
  zero dropped (`0 + x = x` at every extended real), divided by that word.
-/
import proofs.«148727_j6820408066430_1_alg».proof.Proof.Gen.ReferenceIdeal.Read

noncomputable section

open Idealize.ShloMosaic Idealize.ShloMosaic.TcCoe

namespace Cert.ReferenceIdeal.RefValue

open Cert.ReferenceIdeal Cert.ReferenceIdeal.Gen

/-- The reference's result at its index: the whole arrays' sum of squared differences over the count word. -/
theorem result_apply (x0 x1 : (⟨S16384x4096, .f32⟩ : BufTy).Contents (Elt Ideal)) (i : S_.Idx) :
    Read.val_main_v3 (F := Ideal) x0 x1 i
      = Ideal.div (∑ j : S16384x4096.Idx, (x0 j - x1 j) * (x0 j - x1 j)) (Ideal.ofBits .f32 0x4C800000#32) := by
  rw [Read.val_main_v3_apply, Read.val_main_v2_apply, Read.val_main_cst_apply, Read.val_main_cst_0_apply]
  simp only [Read.val_main_v1_apply, Read.val_main_v0_apply, Ideal.hostDivf_def, Ideal.mulf_def, Ideal.subf_def,
    Ideal.ofBits_def, Ideal.ofBits_zero_f32, zero_add]

end Cert.ReferenceIdeal.RefValue

end
-- ==== Proof.lean ====
/-
  A mean-squared-error kernel against jnp's mean of squared differences, over the extended reals.

  THE KERNEL walks a grid of 32 points.  Point `t` sees rows `512·t … 512·t + 511` of the two
  16384 × 4096 arguments `a` and `b`.  A 1 × 1 accumulator in scratch memory is set to zero at the first
  point; every point adds to it the sum over its block of (a − b)·(a − b); the last point stores the
  accumulator divided by the word 0x4C800000 (the element count 2²⁶) into the 1 × 1 output, which the host
  then reshapes to a scalar.  THE REFERENCE subtracts, squares, sums over both axes from zero and divides
  by the same word.

  Read exactly, both are  ( Σ over the whole arrays of (a − b)·(a − b) ) / that word :
  the 32 blocks of 512 rows partition the arrays, and on the extended reals addition is commutative and
  associative with `0` neutral at every value, the infinite ones included, so regrouping the sum block by
  block and dropping the two leading zeros changes nothing.  The same subtraction, product and quotient
  stand on both sides and the divisor is the same word, so neither is ever evaluated.  No entry needs to be
  finite for this: the precondition is not used by the value claim.

  The three runs: the kernel's two (at the word level and at the exact reading) are the generated frame
  runs; the reference has no kernel, and its frame is its generated run with the result dropped.  The
  idealization rewrote nothing, so `preserves` has nothing to state.  The value claim pairs the kernel's
  run, read back as the mean (Proof/KernelValue.lean over Proof/Pieces.lean, Proof/Payloads.lean and
  Proof/BlockSums.lean), with the reference's run, read through its stages (Proof/RefValue.lean).
-/
import proofs.«148727_j6820408066430_1_alg».proof.Defs
import proofs.«148727_j6820408066430_1_alg».proof.Proof.Gen.Kernel
import proofs.«148727_j6820408066430_1_alg».proof.Proof.Gen.Kernel.Skeleton
import proofs.«148727_j6820408066430_1_alg».proof.Proof.Gen.Kernel.Launch
import proofs.«148727_j6820408066430_1_alg».proof.Proof.Gen.Kernel.Points
import proofs.«148727_j6820408066430_1_alg».proof.Proof.Gen.Kernel.Frame
import proofs.«148727_j6820408066430_1_alg».proof.Proof.Gen.KernelIdeal
import proofs.«148727_j6820408066430_1_alg».proof.Proof.Gen.KernelIdeal.Skeleton
import proofs.«148727_j6820408066430_1_alg».proof.Proof.Gen.KernelIdeal.Launch
import proofs.«148727_j6820408066430_1_alg».proof.Proof.Gen.KernelIdeal.Points
import proofs.«148727_j6820408066430_1_alg».proof.Proof.Gen.KernelIdeal.Frame
import proofs.«148727_j6820408066430_1_alg».proof.Proof.Gen.ReferenceIdeal
import proofs.«148727_j6820408066430_1_alg».proof.Proof.Gen.ReferenceIdeal.Run
import proofs.«148727_j6820408066430_1_alg».proof.Proof.Gen.ReferenceIdeal.Read
import proofs.«148727_j6820408066430_1_alg».proof.Proof.Gen.Pre_finite_inputs
import proofs.«148727_j6820408066430_1_alg».proof.Proof.KernelValue
import proofs.«148727_j6820408066430_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read exactly. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `a` and `b` both programs end at the mean of the squared differences: the kernel's
    result is the running block sums' total over the count word, the reference's the whole-array sum over the
    same word, and the two sums are one (the blocks of rows partition the arrays). -/
theorem algebraic : Cert.algebraic_KernelIdeal_ReferenceIdeal := by
  intro m ρ m' ρ' _ hagree
  refine ⟨fun c => Cert.KernelIdeal.MeanValue.scalar m c, Cert.KernelIdeal.MeanValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2]
  funext i
  rw [Cert.ReferenceIdeal.RefValue.result_apply]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
